-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x32x256 : Shape := ⟨3, ![256, 32, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x32x256 : S_.BroadcastsInDim S256x32x256 (![] : Fin 0 → Fin S256x32x256.rank)
  reducesTo_S256x32x256_S_d0_1_2 : S256x32x256.ReducesTo [0, 1, 2] S_

variable [Facts]

def fn {F : FTy → Type} [FloatOps F] (main_arg0 : FVec F S2048x256 .f32) (main_arg1 : FVec F S256x32x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x32x256 .f32 := Host.absf main_arg1
  let main_cst_0 : FVec F S_ .f32 := constant S_ .f32 0x7F800000#32
  let main_v5 : FVec F S256x32x256 .f32 := broadcastInDim S256x32x256 ![] bcast_S_S256x32x256 main_cst_0
  let main_v6 : IVec S256x32x256 1 := cmpf .olt main_v4 main_v5
  let main_c_1 : IVec S_ 1 := constantI S_ 1 1#1
  let main_v7 : IVec S_ 1 := (fun x v => Host.reduce IntOp.andi x v reducesTo_S256x32x256_S_d0_1_2 h_S_) main_v6 main_c_1
  let main_v8 : IVec S_ 1 := andi main_v3 main_v7
  main_v8
-- ==== Kernel.lean ====
abbrev S2048x256 : Shape := ⟨2, ![2048, 256]⟩
abbrev S256x32x256 : Shape := ⟨3, ![256, 32, 256]⟩
abbrev S128x256 : Shape := ⟨2, ![128, 256]⟩
abbrev S128x32 : Shape := ⟨2, ![128, 32]⟩
abbrev S32x128 : Shape := ⟨2, ![32, 128]⟩
abbrev S32x128x32 : Shape := ⟨3, ![32, 128, 32]⟩
abbrev S32x128x1 : Shape := ⟨3, ![32, 128, 1]⟩
abbrev S32x32x256 : Shape := ⟨3, ![32, 32, 256]⟩
abbrev S32x128x256 : Shape := ⟨3, ![32, 128, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x32x256, .f32⟩
  | .hbm, ⟨2, _⟩ => ⟨S256x32x256, .bf16⟩
  | .hbm, ⟨3, _⟩ => ⟨S2048x256, .f32⟩
  | .local _ .vmem, ⟨0, _⟩ => ⟨S128x256, .f32⟩
  | .local _ .vmem, ⟨1, _⟩ => ⟨S128x256, .f32⟩
  | .local _ .vmem, ⟨2, _⟩ => ⟨S256x32x256, .bf16⟩
  | .local _ .vmem, ⟨3, _⟩ => ⟨S128x256, .f32⟩
  | .local _ .vmem, ⟨4, _⟩ => ⟨S128x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S128x256_S128x32_0_0 : ∀ a, (![0, 0] : Fin 2 → Nat) a + S128x32.size a ≤ S128x256.size a
  h_S128x32 : 0 < S128x32.numel
  transposes_S128x32_p1_0_S32x128 : S128x32.Transposes [1, 0] S32x128
  iota_S32x128x32_d2_w32 : S32x128x32.Iotas .tc 32 [2]
  shapeCasts_S32x128_S32x128x1 : S32x128.ShapeCasts S32x128x1
  broadcasts_S32x128x1_S32x128x32 : S32x128x1.Broadcasts S32x128x32
  shapeCasts_S32x128x1_S32x128x1 : S32x128x1.ShapeCasts S32x128x1
  inb_S256x32x256_S32x32x256_0_0_0 : ∀ a, (![0, 0, 0] : Fin 3 → Nat) a + S32x32x256.size a ≤ S256x32x256.size a
  h_S32x32x256 : 0 < S32x32x256.numel
  shapeCasts_S32x32x256_S32x32x256 : S32x32x256.ShapeCasts S32x32x256
  reduces_S32x128x256_S128x256 : S32x128x256.Reduces [0] S128x256
  inb_S128x256_S128x32_0_32 : ∀ a, (![0, 32] : Fin 2 → Nat) a + S128x32.size a ≤ S128x256.size a
  inb_S256x32x256_S32x32x256_32_0_0 : ∀ a, (![32, 0, 0] : Fin 3 → Nat) a + S32x32x256.size a ≤ S256x32x256.size a
  inb_S128x256_S128x32_0_64 : ∀ a, (![0, 64] : Fin 2 → Nat) a + S128x32.size a ≤ S128x256.size a
  inb_S256x32x256_S32x32x256_64_0_0 : ∀ a, (![64, 0, 0] : Fin 3 → Nat) a + S32x32x256.size a ≤ S256x32x256.size a
  inb_S128x256_S128x32_0_96 : ∀ a, (![0, 96] : Fin 2 → Nat) a + S128x32.size a ≤ S128x256.size a
  inb_S256x32x256_S32x32x256_96_0_0 : ∀ a, (![96, 0, 0] : Fin 3 → Nat) a + S32x32x256.size a ≤ S256x32x256.size a
  inb_S128x256_S128x32_0_128 : ∀ a, (![0, 128] : Fin 2 → Nat) a + S128x32.size a ≤ S128x256.size a
  inb_S256x32x256_S32x32x256_128_0_0 : ∀ a, (![128, 0, 0] : Fin 3 → Nat) a + S32x32x256.size a ≤ S256x32x256.size a
  inb_S128x256_S128x32_0_160 : ∀ a, (![0, 160] : Fin 2 → Nat) a + S128x32.size a ≤ S128x256.size a
  inb_S256x32x256_S32x32x256_160_0_0 : ∀ a, (![160, 0, 0] : Fin 3 → Nat) a + S32x32x256.size a ≤ S256x32x256.size a
  inb_S128x256_S128x32_0_192 : ∀ a, (![0, 192] : Fin 2 → Nat) a + S128x32.size a ≤ S128x256.size a
  inb_S256x32x256_S32x32x256_192_0_0 : ∀ a, (![192, 0, 0] : Fin 3 → Nat) a + S32x32x256.size a ≤ S256x32x256.size a
  inb_S128x256_S128x32_0_224 : ∀ a, (![0, 224] : Fin 2 → Nat) a + S128x32.size a ≤ S128x256.size a
  inb_S256x32x256_S32x32x256_224_0_0 : ∀ a, (![224, 0, 0] : Fin 3 → Nat) a + S32x32x256.size a ≤ S256x32x256.size a
  inb_S128x256_S128x256_0_0 : ∀ a, (![0, 0] : Fin 2 → Nat) a + S128x256.size a ≤ S128x256.size a
  h_S128x256 : 0 < S128x256.numel
  dot_S32x128x32_S32x32x256_S32x128x256_2_1_1_2_0_0_wf : DotDims.WF S32x128x32 S32x32x256 S32x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S2048x256.size a
  hwx0_0 : ∀ i : grid0.Coords, EltTy.bits .f32 = 32 ∨ (Rect.block (s := S2048x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32x256.size a ≤ S256x32x256.size a
  hwx0_1 : ∀ i : grid0.Coords, EltTy.bits .bf16 = 32 ∨ (Rect.block (s := S256x32x256) S256x32x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S2048x256.size a
  hwx0_2 : ∀ i : grid0.Coords, EltTy.bits .f32 = 32 ∨ (Rect.block (s := S2048x256) S128x256.size (cc0_transform_2 i) (hinb0_2 i)).WholeWords (EltTy.packing .f32)

variable [Facts₀]

def dot_S32x128x32_S32x32x256_S32x128x256_2_1_1_2_0_0 : DotDims S32x128x32 S32x32x256 S32x128x256 where
  lhsContracting := [2]
  rhsContracting := [1]
  lhsNonContracting := [1]
  rhsNonContracting := [2]
  lhsBatch := [0]
  rhsBatch := [0]
  wf := dot_S32x128x32_S32x32x256_S32x128x256_2_1_1_2_0_0_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x32x256 : Shape := ⟨3, ![256, 32, 256]⟩
abbrev S_ : Shape := ⟨0, ![]⟩
abbrev S256 : Shape := ⟨1, ![256]⟩
abbrev S1x256 : Shape := ⟨2, ![1, 256]⟩
abbrev S2048x256x1 : Shape := ⟨3, ![2048, 256, 1]⟩
abbrev S2048x256x2 : Shape := ⟨3, ![2048, 256, 2]⟩
abbrev S2048x256x256 : Shape := ⟨3, ![2048, 256, 256]⟩

abbrev nBuf : Space → Nat
  | .hbm => 72
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x32x256, .f32⟩
  | .hbm, ⟨2, _⟩ => ⟨S_, .f32⟩
  | .hbm, ⟨3, _⟩ => ⟨S2048x256, .f32⟩
  | .hbm, ⟨4, _⟩ => ⟨S2048x256, .f32⟩
  | .hbm, ⟨5, _⟩ => ⟨S_, .f32⟩
  | .hbm, ⟨6, _⟩ => ⟨S2048x256, .f32⟩
  | .hbm, ⟨7, _⟩ => ⟨S2048x256, .f32⟩
  | .hbm, ⟨8, _⟩ => ⟨S_, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S_, .i32⟩
  | .hbm, ⟨14, _⟩ => ⟨S_, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S2048x256, .i32⟩
  | .hbm, ⟨21, _⟩ => ⟨S256, .i32⟩
  | .hbm, ⟨22, _⟩ => ⟨S1x256, .i32⟩
  | .hbm, ⟨23, _⟩ => ⟨S_, .i32⟩
  | .hbm, ⟨24, _⟩ => ⟨S1x256, .i32⟩
  | .hbm, ⟨25, _⟩ => ⟨S1x256, .i1⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S2048x256, .i32⟩
  | .hbm, ⟨32, _⟩ => ⟨S2048x256, .i1⟩
  | .hbm, ⟨33, _⟩ => ⟨S_, .i32⟩
  | .hbm, ⟨34, _⟩ => ⟨S2048x256, .i32⟩
  | .hbm, ⟨35, _⟩ => ⟨S2048x256, .i32⟩
  | .hbm, ⟨36, _⟩ => ⟨S2048x256, .i32⟩
  | .hbm, ⟨37, _⟩ => ⟨S2048x256, .i32⟩
  | .hbm, ⟨38, _⟩ => ⟨S2048x256x1, .i32⟩
  | .hbm, ⟨39, _⟩ => ⟨S2048x256x1, .i32⟩
  | .hbm, ⟨40, _⟩ => ⟨S2048x256x2, .i32⟩
  | .hbm, ⟨41, _⟩ => ⟨S2048x256x256, .f32⟩
  | .hbm, ⟨42, _⟩ => ⟨S_, .i32⟩
  | .hbm, ⟨43, _⟩ => ⟨S2048x256, .i32⟩
  | .hbm, ⟨44, _⟩ => ⟨S2048x256, .i32⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S1x256, .i32⟩
  | .hbm, ⟨52, _⟩ => ⟨S_, .i32⟩
  | .hbm, ⟨53, _⟩ => ⟨S2048x256, .i32⟩
  | .hbm, ⟨54, _⟩ => ⟨S2048x256, .i1⟩
  | .hbm, ⟨55, _⟩ => ⟨S_, .i32⟩
  | .hbm, ⟨56, _⟩ => ⟨S2048x256, .i32⟩
  | .hbm, ⟨57, _⟩ => ⟨S2048x256, .i32⟩
  | .hbm, ⟨58, _⟩ => ⟨S2048x256, .i32⟩
  | .hbm, ⟨59, _⟩ => ⟨S2048x256, .i32⟩
  | .hbm, ⟨60, _⟩ => ⟨S2048x256x1, .i32⟩
  | .hbm, ⟨61, _⟩ => ⟨S2048x256x1, .i32⟩
  | .hbm, ⟨62, _⟩ => ⟨S2048x256x2, .i32⟩
  | .hbm, ⟨63, _⟩ => ⟨S2048x256x256, .f32⟩
  | .hbm, ⟨64, _⟩ => ⟨S2048x256, .f32⟩
  | .hbm, ⟨65, _⟩ => ⟨S2048x256x1, .f32⟩
  | .hbm, ⟨66, _⟩ => ⟨S2048x256x256, .f32⟩
  | .hbm, ⟨67, _⟩ => ⟨S2048x256x256, .f32⟩
  | .hbm, ⟨68, _⟩ => ⟨S2048x256x256, .f32⟩
  | .hbm, ⟨69, _⟩ => ⟨S2048x256x256, .f32⟩
  | .hbm, ⟨70, _⟩ => ⟨S_, .f32⟩
  | .hbm, ⟨71, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_c_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  bcast_S_S2048x256 : S_.BroadcastsInDim S2048x256 (![] : Fin 0 → Fin S2048x256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S2048x256_0_1 : S1x256.BroadcastsInDim S2048x256 (![0, 1] : Fin 2 → Fin S2048x256.rank)
  bcast_S2048x256_S2048x256x1_0_1 : S2048x256.BroadcastsInDim S2048x256x1 (![0, 1] : Fin 2 → Fin S2048x256x1.rank)
  concatenates_S2048x256x1_S2048x256x1_S2048x256x2_d2 : Shape.Concatenates [S2048x256x1, S2048x256x1] S2048x256x2 2
  bcast_S2048x256x1_S2048x256x256_0_1_2 : S2048x256x1.BroadcastsInDim S2048x256x256 (![0, 1, 2] : Fin 3 → Fin S2048x256x256.rank)
  reducesTo_S2048x256x256_S2048x256_d1 : S2048x256x256.ReducesTo [1] S2048x256
  h_S_ : 0 < S_.numel
  gather_S256x32x256_S2048x256x2_S2048x256x256_2_01_n_n_01_2_11256_wf : GatherDims.WF S256x32x256 S2048x256x2 S2048x256x256 [2] [0, 1] [] [0, 1] [] 2 ![1, 1, 256]

variable [Facts₀]

def gather_S256x32x256_S2048x256x2_S2048x256x256_2_01_n_n_01_2_11256 : GatherDims S256x32x256 S2048x256x2 S2048x256x256 where
  offsetDims := [2]
  collapsedSliceDims := [0, 1]
  operandBatchingDims := []
  startIndicesBatchingDims := []
  startIndexMap := [0, 1]
  indexVectorDim := 2
  sliceSizes := ![1, 1, 256]
  wf := gather_S256x32x256_S2048x256x2_S2048x256x256_2_01_n_n_01_2_11256_wf

class Facts : Prop extends Facts₀ where

variable [Facts]
-- ==== Proof.Spline.lean ====
/-
  The spline's scalar functions and the result array as ONE function of the two argument arrays, over the
  extended reals; no program is imported here.

  An input `x` is rescaled to the control-point grid, `pos x = ((x + 2) · 31) / 4`; its cell is the floor of that
  clipped to `[0, 30]` (`low`, as a float; `cell`, as a 32-bit word) and `frac x = pos x − low x` is the
  position inside the cell. The coefficient row of `x` over the 32 control points is TWO-HOT (`hot`): `1 − frac x`
  at the cell, `frac x` at the cell's successor, `0` elsewhere. The result at `(b, o)` sums, over the 256 features
  `f` and the 32 control points `k`, the coefficient of `x[b, f]` at `k` times the table entry `w[f, k, o]` (`G`).

  For a FINITE `x` the cell is one of `0 … 30` (`cell_spec`), and against finite table entries a two-hot row's
  sum is the linear interpolation `L + frac x · (U − L)` between the entries `L`, `U` at the cell and its successor
  (`hot_sum`): the only place where finiteness is used, since `(1 − t)·L + t·U = L + t·(U − L)` is a law of the reals
  that fails at the infinities.
-/
import Idealize.ShloMosaic.PureOps.Ideal
import Idealize.ShloMosaic.PureOps.Ideal.Laws
import Idealize.ShloMosaic.Lib.ValueIdx

noncomputable section

open scoped BigOperators

namespace Cert.Spline

open Idealize.ShloMosaic Idealize.ShloMosaic.ValueIdx

/-- The input rescaled to the control-point grid: `((x + 2) · 31) / 4`, the literals as the programs spell them. -/
def pos (x : EReal) : EReal :=
  Ideal.div ((x + Ideal.ofBits .f32 0x40000000#32) * Ideal.ofBits .f32 0x41F80000#32) (Ideal.ofBits .f32 0x40800000#32)

/-- The cell as a float: the floor of the position, clipped to `[0, 30]`. -/
def low (x : EReal) : EReal :=
  min (Ideal.ofBits .f32 0x41F00000#32) (max (Ideal.ofBits .f32 0x00000000#32) (Ideal.liftRound Int.floor (pos x)))

/-- The cell as a 32-bit word. -/
def cell (x : EReal) : BitVec 32 := Ideal.fptosi 32 (low x)

/-- The position inside the cell. -/
def frac (x : EReal) : EReal := pos x - low x

/-- The two-hot coefficient of `x` at control point `k`. -/
def hot (x : EReal) (k : BitVec 32) : EReal :=
  Scalar.select (IntOp.cmpi .eq k (cell x)) (Ideal.ofBits .f32 0x3F800000#32 - frac x)
    (Scalar.select (IntOp.cmpi .eq k (IntOp.addi (cell x) 1#32)) (frac x) (Ideal.ofBits .f32 0x00000000#32))

/-- THE RESULT: at `(b, o)`, the sum over features `f` and control points `k` of the coefficient of `x[b, f]` at `k`
    times `w[f, k, o]`. -/
def G (X : (⟨2, ![2048, 256]⟩ : Shape).Idx → EReal) (W : (⟨3, ![256, 32, 256]⟩ : Shape).Idx → EReal) :
    (⟨2, ![2048, 256]⟩ : Shape).Idx → EReal :=
  fun j => ∑ f : Fin 256, ∑ k : Fin 32, hot (X (ix2 (j 0) f)) (BitVec.ofNat 32 k.val) * W (ix3 f k (j 1))

/-! ## The literals -/

theorem two : Ideal.ofBits .f32 0x40000000#32 = ((2 : ℝ) : EReal) := by
  simp [Ideal.ofBits, Ideal.ieee, -EReal.coe_mul]; norm_num
theorem thirtyOne : Ideal.ofBits .f32 0x41F80000#32 = ((31 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem thirty : Ideal.ofBits .f32 0x41F00000#32 = ((30 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem zero : Ideal.ofBits .f32 0x00000000#32 = ((0 : ℝ) : EReal) := by
  simp [Ideal.ofBits, Ideal.ieee]

/-! ## A finite input -/

/-- The position of a finite input is finite. -/
theorem pos_coe (r : ℝ) : pos (r : EReal) = (((r + 2) * 31 * (1 / 4) : ℝ) : EReal) := by
  unfold pos
  rw [two, thirtyOne, four, Ideal.div_coe (by norm_num : (4 : ℝ) ≠ 0)]
  norm_cast

/-- The cell of a finite input, as a float, is a natural number up to 30. -/
theorem low_coe (r : ℝ) : ∃ n : ℕ, n ≤ 30 ∧ low (r : EReal) = ((n : ℝ) : EReal) := by
  unfold low
  rw [pos_coe, Ideal.liftRound_coe, thirty, zero]
  generalize ⌊(r + 2) * 31 * (1 / 4)⌋ = z
  have hmono : Monotone (fun x : ℝ => (x : EReal)) := EReal.coe_strictMono.monotone
  refine ⟨(min 30 (max 0 z)).toNat, by omega, ?_⟩
  have hz : (((min 30 (max 0 z)).toNat : ℕ) : ℤ) = min 30 (max 0 z) := Int.toNat_of_nonneg (by omega)
  have hr : (((min 30 (max 0 z)).toNat : ℕ) : ℝ) = min (30 : ℝ) (max (0 : ℝ) (z : ℝ)) := by
    have := congrArg (fun i : ℤ => (i : ℝ)) hz
    simp only [Int.cast_natCast, Int.cast_min, Int.cast_max, Int.cast_ofNat, Int.cast_zero] at this
    exact this
  rw [hr]
  exact ((hmono.map_min (a := (30 : ℝ)) (b := max (0 : ℝ) (z : ℝ))).trans
    (congrArg (min ((30 : ℝ) : EReal)) (hmono.map_max (a := (0 : ℝ)) (b := (z : ℝ))))).symm

/-- The cell of a finite input, as a word, is one of `0 … 30`. -/
theorem cell_spec (r : ℝ) : ∃ n : ℕ, n ≤ 30 ∧ cell (r : EReal) = BitVec.ofNat 32 n ∧ low (r : EReal) = ((n : ℝ) : EReal) := by
  obtain ⟨n, hn, hl⟩ := low_coe r
  refine ⟨n, hn, ?_, hl⟩
  unfold cell Ideal.fptosi
  rw [hl, Ideal.toIntClamped_coe]
  have h0 : (0 : ℝ) ≤ (n : ℝ) := Nat.cast_nonneg n
  rw [if_pos h0, Int.floor_natCast]
  have : max (-((2 ^ (32 - 1) : ℕ) : ℤ)) (min (((2 ^ (32 - 1) : ℕ) : ℤ) - 1) (n : ℤ)) = (n : ℤ) := by
    norm_num; omega
  rw [this]
  exact BitVec.ofInt_natCast 32 n

/-- The position inside the cell of a finite input is finite. -/
theorem frac_coe (r : ℝ) : ∃ t : ℝ, frac (r : EReal) = (t : EReal) := by
  obtain ⟨n, _, hl⟩ := low_coe r
  refine ⟨(r + 2) * 31 * (1 / 4) - n, ?_⟩
  unfold frac
  rw [pos_coe, hl]
  norm_cast

/-- A TWO-HOT ROW AGAINST FINITE ENTRIES IS THE LINEAR INTERPOLATION: with the cell `n ≤ 30`, the sum over the 32
    control points of the coefficient times the entry is `L + frac · (U − L)`, `L` and `U` the entries at `n` and `n + 1`. -/
theorem hot_sum (r : ℝ) (n : ℕ) (hn : n ≤ 30) (hc : cell (r : EReal) = BitVec.ofNat 32 n) (g : Fin 32 → ℝ) :
    ∑ k : Fin 32, hot (r : EReal) (BitVec.ofNat 32 k.val) * ((g k : ℝ) : EReal)
      = ((g ⟨n, by omega⟩ : ℝ) : EReal) + frac (r : EReal) * (((g ⟨n + 1, by omega⟩ : ℝ) : EReal) - ((g ⟨n, by omega⟩ : ℝ) : EReal)) := by
  obtain ⟨t, ht⟩ := frac_coe r
  have hab : (⟨n, by omega⟩ : Fin 32) ≠ ⟨n + 1, by omega⟩ := fun h => by
    have := congrArg Fin.val h; simp at this
  have hsel : ∀ k : Fin 32, hot (r : EReal) (BitVec.ofNat 32 k.val)
      = if k = (⟨n, by omega⟩ : Fin 32) then (((1 - t : ℝ)) : EReal)
        else if k = (⟨n + 1, by omega⟩ : Fin 32) then ((t : ℝ) : EReal) else 0 := by
    intro k
    unfold hot
    rw [hc, ht, one, zero]
    have hk := k.isLt
    have e1 : IntOp.cmpi .eq (BitVec.ofNat 32 k.val) (BitVec.ofNat 32 n) = BitVec.ofBool (decide (k.val = n)) := by
      unfold IntOp.cmpi
      congr 1
      rw [Bool.eq_iff_iff, beq_iff_eq, decide_eq_true_iff]
      constructor
      · intro h
        have := congrArg BitVec.toNat h
        simp only [BitVec.toNat_ofNat] at this
        omega
      · intro h; rw [h]
    have e2 : IntOp.cmpi .eq (BitVec.ofNat 32 k.val) (IntOp.addi (BitVec.ofNat 32 n) 1#32) = BitVec.ofBool (decide (k.val = n + 1)) := by
      unfold IntOp.cmpi IntOp.addi
      congr 1
      rw [Bool.eq_iff_iff, beq_iff_eq, decide_eq_true_iff]
      constructor
      · intro h
        have := congrArg BitVec.toNat h
        simp only [BitVec.toNat_ofNat, BitVec.toNat_add] at this
        omega
      · intro h
        apply BitVec.eq_of_toNat_eq
        simp only [BitVec.toNat_ofNat, BitVec.toNat_add]
        omega
    rw [e1, e2]
    by_cases h1 : k.val = n
    · have hk1 : k = (⟨n, by omega⟩ : Fin 32) := Fin.ext h1
      rw [if_pos hk1]
      simp only [h1, decide_true, BitVec.ofBool_true, Scalar.select, if_true]
      norm_cast
    · have hk1 : ¬ k = (⟨n, by omega⟩ : Fin 32) := fun h => h1 (congrArg Fin.val h)
      rw [if_neg hk1]
      by_cases h2 : k.val = n + 1
      · have hk2 : k = (⟨n + 1, by omega⟩ : Fin 32) := Fin.ext h2
        rw [if_pos hk2]
        simp [h1, h2, Scalar.select]
      · have hk2 : ¬ k = (⟨n + 1, by omega⟩ : Fin 32) := fun h => h2 (congrArg Fin.val h)
        rw [if_neg hk2]
        simp [h1, h2, Scalar.select]
  rw [Finset.sum_eq_add (⟨n, by omega⟩ : Fin 32) ⟨n + 1, by omega⟩ hab
    (fun c _ hcab => by rw [hsel, if_neg hcab.1, if_neg hcab.2, zero_mul])
    (fun h => absurd (Finset.mem_univ _) h) (fun h => absurd (Finset.mem_univ _) h)]
  rw [hsel, hsel, if_pos rfl, if_neg hab.symm, if_pos rfl, ht]
  norm_cast
  ring

end Cert.Spline

end
-- ==== Proof.Chunk.lean ====
/-
  One FEATURE CHUNK of the kernel's body, as a function of the chunk's 32 columns of the input block and the chunk's 32
  rows of the control-point table: the body computes, for 32 features at a time, the two-hot coefficient rows of the
  128 batch rows (features leading: a transposed [32, 128, 32] array), multiplies them with the table rows feature by
  feature (a batched product contracting the 32 control points) and sums the 32 features. The body's result is the zero
  array plus the eight chunks' values, each added to the running sum (`pay_*`: the body's values are this function of
  their loads, by unfolding).
-/
import proofs.«176332_j11321533792683_1_alg».proof.Proof.Gen.KernelIdeal.Skeleton
import proofs.«176332_j11321533792683_1_alg».proof.Proof.Spline
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Chunk

open Cert.KernelIdeal Cert.KernelIdeal.Gen Idealize.ShloMosaic Idealize.ShloMosaic.ValueIdx

section AnyInstance
variable {F : FTy → Type} [FloatOps F]

/-- The value one feature chunk adds to the running sum: the chunk's columns `v1` of the input block, its table rows `v36`. -/
def chunk (v1 : Vec F S128x32 .f32) (v36 : Vec F S32x32x256 .bf16) : FVec F S128x256 .f32 :=
  have cst_1 : F .f32 := Scalar.ofBits .f32 0x40000000#32
  have v2 : FVec F S128x32 .f32 := broadcast S128x32 cst_1
  have v3 : FVec F S128x32 .f32 := addf v1 v2
  have cst_2 : F .f32 := Scalar.ofBits .f32 0x41F80000#32
  have v4 : FVec F S128x32 .f32 := broadcast S128x32 cst_2
  have v5 : FVec F S128x32 .f32 := mulf v3 v4
  have cst_3 : F .f32 := Scalar.ofBits .f32 0x40800000#32
  have v6 : FVec F S128x32 .f32 := broadcast S128x32 cst_3
  have v7 : FVec F S128x32 .f32 := divf v5 v6
  have v8 : FVec F S128x32 .f32 := floor v7
  have cst_4 : F .f32 := Scalar.ofBits .f32 0x00000000#32
  have cst_5 : F .f32 := Scalar.ofBits .f32 0x41F00000#32
  have v9 : FVec F S128x32 .f32 := broadcast S128x32 cst_4
  have v10 : FVec F S128x32 .f32 := maximumf v9 v8
  have v11 : FVec F S128x32 .f32 := broadcast S128x32 cst_5
  have v12 : FVec F S128x32 .f32 := minimumf v11 v10
  have v13 : IVec S128x32 32 := fptosi 32 v12
  have v14 : FVec F S128x32 .f32 := subf v7 v12
  have v15 : IVec S32x128 32 := transpose S32x128 [1, 0] v13 transposes_S128x32_p1_0_S32x128
  have v16 : FVec F S32x128 .f32 := transpose S32x128 [1, 0] v14 transposes_S128x32_p1_0_S32x128
  have v17 : IVec S32x128x32 32 := iota .tc S32x128x32 32 [2] iota_S32x128x32_d2_w32
  have v18 : IVec S32x128x1 32 := shapeCast S32x128x1 v15 shapeCasts_S32x128_S32x128x1
  have v19 : FVec F S32x128x1 .f32 := shapeCast S32x128x1 v16 shapeCasts_S32x128_S32x128x1
  have v20 : IVec S32x128x32 32 := broadcastTo S32x128x32 v18 broadcasts_S32x128x1_S32x128x32
  have v21 : IVec S32x128x32 1 := cmpi .eq v17 v20
  have v22 : IVec S32x128x1 32 := broadcast S32x128x1 1#32
  have v23 : IVec S32x128x1 32 := addi v18 v22
  have v24 : IVec S32x128x32 32 := broadcastTo S32x128x32 v23 broadcasts_S32x128x1_S32x128x32
  have v25 : IVec S32x128x32 1 := cmpi .eq v17 v24
  have cst_6 : F .f32 := Scalar.ofBits .f32 0x3F800000#32
  have v26 : FVec F S32x128x1 .f32 := broadcast S32x128x1 cst_6
  have v27 : FVec F S32x128x1 .f32 := subf v26 v19
  have cst_7 : F .f32 := Scalar.ofBits .f32 0x00000000#32
  have v28 : FVec F S32x128x1 .f32 := shapeCast S32x128x1 v19 shapeCasts_S32x128x1_S32x128x1
  have v29 : FVec F S32x128x32 .f32 := broadcastTo S32x128x32 v28 broadcasts_S32x128x1_S32x128x32
  have v30 : FVec F S32x128x32 .f32 := broadcast S32x128x32 cst_7
  have v31 : FVec F S32x128x32 .f32 := select v25 v29 v30
  have v32 : FVec F S32x128x1 .f32 := shapeCast S32x128x1 v27 shapeCasts_S32x128x1_S32x128x1
  have v33 : FVec F S32x128x32 .f32 := broadcastTo S32x128x32 v32 broadcasts_S32x128x1_S32x128x32
  have v34 : FVec F S32x128x32 .f32 := select v21 v33 v31
  have v35 : FVec F S32x128x32 .bf16 := truncf .bf16 v34 bitsLt_bf16_f32
  have v37 : FVec F S32x32x256 .bf16 := shapeCast S32x32x256 v36 shapeCasts_S32x32x256_S32x32x256
  have cst_11 : FVec F S32x128x256 .f32 := constant S32x128x256 .f32 0x00000000#32
  have v38 : FVec F S32x128x256 .f32 := matmul dot_S32x128x32_S32x32x256_S32x128x256_2_1_1_2_0_0 none v35 v37 cst_11
  have v39 : FVec F S128x256 .f32 := multiReduction .add [0] S128x256 v38 0x00000000#32 reduces_S32x128x256_S128x256 (.inl rfl) rfl
  v39

/-- The first chunk is added to the zero array. -/
theorem pay_first (a : Vec F S128x32 .f32) (b : Vec F S32x32x256 .bf16) :
    k0_pay2 a b = addf (broadcast S128x256 (Scalar.ofBits .f32 0x00000000#32)) (chunk a b) := rfl
theorem pay_second (acc : FVec F S128x256 .f32) (a : Vec F S128x32 .f32) (b : Vec F S32x32x256 .bf16) :
    k0_pay3 acc a b = addf acc (chunk a b) := rfl
theorem pay_third (acc : FVec F S128x256 .f32) (a : Vec F S128x32 .f32) (b : Vec F S32x32x256 .bf16) :
    k0_pay5 acc (k0_pay4 a) (Scalar.ofBits .f32 0x41F80000#32) b = addf acc (chunk a b) := rfl
theorem pay_fourth (acc : FVec F S128x256 .f32) (a : Vec F S128x32 .f32) (b : Vec F S32x32x256 .bf16) :
    k0_pay7 acc (k0_pay6 a) b = addf acc (chunk a b) := rfl
theorem pay_fifth (acc : FVec F S128x256 .f32) (a : Vec F S128x32 .f32) (b : Vec F S32x32x256 .bf16) :
    k0_pay10 acc (k0_pay8 a) (Scalar.ofBits .f32 0x41F00000#32) (k0_pay9 a) b = addf acc (chunk a b) := rfl
theorem pay_sixth (acc : FVec F S128x256 .f32) (a : Vec F S128x32 .f32) (b : Vec F S32x32x256 .bf16) :
    k0_pay15 acc (k0_pay13 a) (k0_pay14 a) b = addf acc (chunk a b) := rfl
theorem pay_seventh (acc : FVec F S128x256 .f32) (a : Vec F S128x32 .f32) (b : Vec F S32x32x256 .bf16) :
    k0_pay21 acc (iota .tc S32x128x32 32 [2] iota_S32x128x32_d2_w32) (k0_pay18 a) (k0_pay19 a) (k0_pay20 a) b = addf acc (chunk a b) := rfl
theorem pay_eighth (acc : FVec F S128x256 .f32) (a : Vec F S128x32 .f32) (b : Vec F S32x32x256 .bf16) :
    k0_pay1 acc (iota .tc S32x128x32 32 [2] iota_S32x128x32_d2_w32) (k0_pay25 a) (k0_pay26 a) (k0_pay27 a) b = addf acc (chunk a b) := rfl

/-! ## The chunk cut in three: the cells, the positions inside them, and the coefficient rows -/

/-- The cells of the chunk's inputs as words, features leading: at `(f, b, 0)` the cell of `v1[b, f]`. -/
def cellArr (v1 : Vec F S128x32 .f32) : IVec S32x128x1 32 :=
  have cst_1 : F .f32 := Scalar.ofBits .f32 0x40000000#32
  have v2 : FVec F S128x32 .f32 := broadcast S128x32 cst_1
  have v3 : FVec F S128x32 .f32 := addf v1 v2
  have cst_2 : F .f32 := Scalar.ofBits .f32 0x41F80000#32
  have v4 : FVec F S128x32 .f32 := broadcast S128x32 cst_2
  have v5 : FVec F S128x32 .f32 := mulf v3 v4
  have cst_3 : F .f32 := Scalar.ofBits .f32 0x40800000#32
  have v6 : FVec F S128x32 .f32 := broadcast S128x32 cst_3
  have v7 : FVec F S128x32 .f32 := divf v5 v6
  have v8 : FVec F S128x32 .f32 := floor v7
  have cst_4 : F .f32 := Scalar.ofBits .f32 0x00000000#32
  have cst_5 : F .f32 := Scalar.ofBits .f32 0x41F00000#32
  have v9 : FVec F S128x32 .f32 := broadcast S128x32 cst_4
  have v10 : FVec F S128x32 .f32 := maximumf v9 v8
  have v11 : FVec F S128x32 .f32 := broadcast S128x32 cst_5
  have v12 : FVec F S128x32 .f32 := minimumf v11 v10
  have v13 : IVec S128x32 32 := fptosi 32 v12
  have v15 : IVec S32x128 32 := transpose S32x128 [1, 0] v13 transposes_S128x32_p1_0_S32x128
  have v18 : IVec S32x128x1 32 := shapeCast S32x128x1 v15 shapeCasts_S32x128_S32x128x1
  v18

/-- The positions inside the cells, features leading: at `(f, b, 0)` that of `v1[b, f]`. -/
def fracArr (v1 : Vec F S128x32 .f32) : FVec F S32x128x1 .f32 :=
  have cst_1 : F .f32 := Scalar.ofBits .f32 0x40000000#32
  have v2 : FVec F S128x32 .f32 := broadcast S128x32 cst_1
  have v3 : FVec F S128x32 .f32 := addf v1 v2
  have cst_2 : F .f32 := Scalar.ofBits .f32 0x41F80000#32
  have v4 : FVec F S128x32 .f32 := broadcast S128x32 cst_2
  have v5 : FVec F S128x32 .f32 := mulf v3 v4
  have cst_3 : F .f32 := Scalar.ofBits .f32 0x40800000#32
  have v6 : FVec F S128x32 .f32 := broadcast S128x32 cst_3
  have v7 : FVec F S128x32 .f32 := divf v5 v6
  have v8 : FVec F S128x32 .f32 := floor v7
  have cst_4 : F .f32 := Scalar.ofBits .f32 0x00000000#32
  have cst_5 : F .f32 := Scalar.ofBits .f32 0x41F00000#32
  have v9 : FVec F S128x32 .f32 := broadcast S128x32 cst_4
  have v10 : FVec F S128x32 .f32 := maximumf v9 v8
  have v11 : FVec F S128x32 .f32 := broadcast S128x32 cst_5
  have v12 : FVec F S128x32 .f32 := minimumf v11 v10
  have v14 : FVec F S128x32 .f32 := subf v7 v12
  have v16 : FVec F S32x128 .f32 := transpose S32x128 [1, 0] v14 transposes_S128x32_p1_0_S32x128
  have v19 : FVec F S32x128x1 .f32 := shapeCast S32x128x1 v16 shapeCasts_S32x128_S32x128x1
  v19

/-- The two-hot coefficient rows from the cells and the positions inside them: at `(f, b, k)` the coefficient at control
    point `k`. -/
def coef (v18 : IVec S32x128x1 32) (v19 : FVec F S32x128x1 .f32) : FVec F S32x128x32 .bf16 :=
  have v17 : IVec S32x128x32 32 := iota .tc S32x128x32 32 [2] iota_S32x128x32_d2_w32
  have v20 : IVec S32x128x32 32 := broadcastTo S32x128x32 v18 broadcasts_S32x128x1_S32x128x32
  have v21 : IVec S32x128x32 1 := cmpi .eq v17 v20
  have v22 : IVec S32x128x1 32 := broadcast S32x128x1 1#32
  have v23 : IVec S32x128x1 32 := addi v18 v22
  have v24 : IVec S32x128x32 32 := broadcastTo S32x128x32 v23 broadcasts_S32x128x1_S32x128x32
  have v25 : IVec S32x128x32 1 := cmpi .eq v17 v24
  have cst_6 : F .f32 := Scalar.ofBits .f32 0x3F800000#32
  have v26 : FVec F S32x128x1 .f32 := broadcast S32x128x1 cst_6
  have v27 : FVec F S32x128x1 .f32 := subf v26 v19
  have cst_7 : F .f32 := Scalar.ofBits .f32 0x00000000#32
  have v28 : FVec F S32x128x1 .f32 := shapeCast S32x128x1 v19 shapeCasts_S32x128x1_S32x128x1
  have v29 : FVec F S32x128x32 .f32 := broadcastTo S32x128x32 v28 broadcasts_S32x128x1_S32x128x32
  have v30 : FVec F S32x128x32 .f32 := broadcast S32x128x32 cst_7
  have v31 : FVec F S32x128x32 .f32 := select v25 v29 v30
  have v32 : FVec F S32x128x1 .f32 := shapeCast S32x128x1 v27 shapeCasts_S32x128x1_S32x128x1
  have v33 : FVec F S32x128x32 .f32 := broadcastTo S32x128x32 v32 broadcasts_S32x128x1_S32x128x32
  have v34 : FVec F S32x128x32 .f32 := select v21 v33 v31
  have v35 : FVec F S32x128x32 .bf16 := truncf .bf16 v34 bitsLt_bf16_f32
  v35

/-- The chunk is the sum over its 32 features of the batched product of the coefficient rows with the table rows. -/
theorem chunk_eq (v1 : Vec F S128x32 .f32) (v36 : Vec F S32x32x256 .bf16) :
    chunk v1 v36 = multiReduction .add [0] S128x256
      (matmul dot_S32x128x32_S32x32x256_S32x128x256_2_1_1_2_0_0 none (coef (cellArr v1) (fracArr v1)) (shapeCast S32x32x256 v36 shapeCasts_S32x32x256_S32x32x256)
        (constant S32x128x256 .f32 0x00000000#32))
      0x00000000#32 reduces_S32x128x256_S128x256 (.inl rfl) rfl := rfl

end AnyInstance

/-! ## Read at an index, over the extended reals -/

section AtIdeal

/-- A `[32, 128]` array viewed `[32, 128, 1]` reads `(f, b, 0)` at `(f, b)`. -/
theorem cast_unit_apply {α : Type} (y : S32x128.Idx → α) (f : Fin 32) (b : Fin 128) (u : Fin 1) :
    shapeCast S32x128x1 y shapeCasts_S32x128_S32x128x1 (ix3 f b u) = y (ix2 f b) :=
  shapeCast_apply y shapeCasts_S32x128_S32x128x1 (ix3 f b u) (ix2 f b) (by
    rw [Shape.rowMajor_val_two, Shape.rowMajor_val_three]
    show f.val * 128 + b.val = (f.val * 128 + b.val) * 1 + u.val
    have := u.isLt; omega)

/-- A `[32, 128, 1]` array broadcast along the control points reads `(f, b, k)` at `(f, b, 0)`. -/
theorem bcast_apply {α : Type} (y : S32x128x1.Idx → α) (f : Fin 32) (b : Fin 128) (k : Fin 32) :
    broadcastTo S32x128x32 y broadcasts_S32x128x1_S32x128x32 (ix3 f b k) = y (ix3 f b (0 : Fin 1)) :=
  broadcastTo_apply y broadcasts_S32x128x1_S32x128x32 (ix3 f b k) (ix3 f b (0 : Fin 1)) (fun a => match a with
    | ⟨0, _⟩ => by show f.val = if (32 : Nat) = 1 then 0 else f.val; rw [if_neg (by decide)]
    | ⟨1, _⟩ => by show b.val = if (128 : Nat) = 1 then 0 else b.val; rw [if_neg (by decide)]
    | ⟨2, _⟩ => by show 0 = if (1 : Nat) = 1 then 0 else k.val; rw [if_pos rfl])

/-- The cell array at `(f, b, 0)` is the cell of the input at `(b, f)`. -/
theorem cellArr_apply (xc : Vec Ideal S128x32 .f32) (f : Fin 32) (b : Fin 128) (u : Fin 1) :
    cellArr xc (ix3 f b u) = Spline.cell (xc (ix2 b f)) := by
  unfold cellArr
  refine (cast_unit_apply _ f b u).trans ?_
  refine (transpose_ix2_apply _ transposes_S128x32_p1_0_S32x128 f b).trans ?_
  rfl

/-- The array of positions inside the cells at `(f, b, 0)` is that of the input at `(b, f)`. -/
theorem fracArr_apply (xc : Vec Ideal S128x32 .f32) (f : Fin 32) (b : Fin 128) (u : Fin 1) :
    fracArr xc (ix3 f b u) = Spline.frac (xc (ix2 b f)) := by
  unfold fracArr
  refine (cast_unit_apply _ f b u).trans ?_
  refine (transpose_ix2_apply _ transposes_S128x32_p1_0_S32x128 f b).trans ?_
  rfl

/-- The coefficient rows at `(f, b, k)`: the two selects on `k` against the cell and its successor. -/
theorem coef_apply (c : IVec S32x128x1 32) (t : FVec Ideal S32x128x1 .f32) (f : Fin 32) (b : Fin 128) (k : Fin 32) :
    coef c t (ix3 f b k)
      = Scalar.select (IntOp.cmpi .eq (BitVec.ofNat 32 k.val) (c (ix3 f b (0 : Fin 1))))
          (Ideal.ofBits .f32 0x3F800000#32 - t (ix3 f b (0 : Fin 1)))
          (Scalar.select (IntOp.cmpi .eq (BitVec.ofNat 32 k.val) (IntOp.addi (c (ix3 f b (0 : Fin 1))) 1#32))
            (t (ix3 f b (0 : Fin 1))) (Ideal.ofBits .f32 0x00000000#32)) := by
  have hio : iota .tc S32x128x32 32 [2] iota_S32x128x32_d2_w32 (ix3 f b k) = BitVec.ofNat 32 k.val :=
    iota_single_apply .tc S32x128x32 32 2 iota_S32x128x32_d2_w32 (ix3 f b k)
  have e0 : coef c t (ix3 f b k)
      = Scalar.select (IntOp.cmpi .eq (iota .tc S32x128x32 32 [2] iota_S32x128x32_d2_w32 (ix3 f b k))
            (broadcastTo S32x128x32 c broadcasts_S32x128x1_S32x128x32 (ix3 f b k)))
          (broadcastTo S32x128x32 (shapeCast S32x128x1 (subf (broadcast S32x128x1 (Scalar.ofBits (F := Ideal) .f32 0x3F800000#32)) t)
            shapeCasts_S32x128x1_S32x128x1) broadcasts_S32x128x1_S32x128x32 (ix3 f b k))
          (Scalar.select (IntOp.cmpi .eq (iota .tc S32x128x32 32 [2] iota_S32x128x32_d2_w32 (ix3 f b k))
              (broadcastTo S32x128x32 (addi c (broadcast S32x128x1 1#32)) broadcasts_S32x128x1_S32x128x32 (ix3 f b k)))
            (broadcastTo S32x128x32 (shapeCast S32x128x1 t shapeCasts_S32x128x1_S32x128x1) broadcasts_S32x128x1_S32x128x32 (ix3 f b k))
            (Scalar.ofBits (F := Ideal) .f32 0x00000000#32)) := rfl
  rw [e0, hio, bcast_apply, bcast_apply, bcast_apply, bcast_apply, shapeCast_self, shapeCast_self]
  rfl

/-- So the coefficient rows of a chunk at `(f, b, k)` are the two-hot coefficient of the input at `(b, f)` at `k`. -/
theorem coef_hot (xc : Vec Ideal S128x32 .f32) (f : Fin 32) (b : Fin 128) (k : Fin 32) :
    coef (cellArr xc) (fracArr xc) (ix3 f b k) = Spline.hot (xc (ix2 b f)) (BitVec.ofNat 32 k.val) := by
  rw [coef_apply, cellArr_apply, fracArr_apply]
  rfl

/-! ### The batched product's operand indices -/

abbrev D := dot_S32x128x32_S32x32x256_S32x128x256_2_1_1_2_0_0

theorem lhs_0 (j : S32x128x256.Idx) (q : D.contr.Idx) : (D.lhsIdx j q 0 : ℕ) = j 0 := by
  simp [DotDims.lhsIdx, D, dot_S32x128x32_S32x32x256_S32x128x256_2_1_1_2_0_0]; rfl
theorem lhs_1 (j : S32x128x256.Idx) (q : D.contr.Idx) : (D.lhsIdx j q 1 : ℕ) = j 1 := by
  simp [DotDims.lhsIdx, D, dot_S32x128x32_S32x32x256_S32x128x256_2_1_1_2_0_0]; rfl
theorem lhs_2 (j : S32x128x256.Idx) (q : D.contr.Idx) : (D.lhsIdx j q 2 : ℕ) = q ⟨0, by decide⟩ := by
  simp [DotDims.lhsIdx, D, dot_S32x128x32_S32x32x256_S32x128x256_2_1_1_2_0_0]; rfl
theorem rhs_0 (j : S32x128x256.Idx) (q : D.contr.Idx) : (D.rhsIdx j q 0 : ℕ) = j 0 := by
  simp [DotDims.rhsIdx, D, dot_S32x128x32_S32x32x256_S32x128x256_2_1_1_2_0_0]; rfl
theorem rhs_1 (j : S32x128x256.Idx) (q : D.contr.Idx) : (D.rhsIdx j q 1 : ℕ) = q ⟨0, by decide⟩ := by
  simp [DotDims.rhsIdx, D, dot_S32x128x32_S32x32x256_S32x128x256_2_1_1_2_0_0]; rfl
theorem rhs_2 (j : S32x128x256.Idx) (q : D.contr.Idx) : (D.rhsIdx j q 2 : ℕ) = j 2 := by
  simp [DotDims.rhsIdx, D, dot_S32x128x32_S32x32x256_S32x128x256_2_1_1_2_0_0]; rfl

/-- The contraction runs over the 32 control points. -/
def contrEquiv : D.contr.Idx ≃ Fin 32 := contrEquiv1 D 32 (by decide) (by decide)

theorem contrEquiv_symm_val (k : Fin 32) : ((contrEquiv.symm k) ⟨0, by decide⟩ : ℕ) = k.val :=
  contrEquiv1_symm_val D 32 (by decide) (by decide) k

/-- A CHUNK AT `(b, o)`: the sum over the chunk's 32 features and the 32 control points of the two-hot coefficient of
    the input at `(b, f)` times the table entry at `(f, k, o)`. -/
theorem chunk_apply (xc : Vec Ideal S128x32 .f32) (kw : Vec Ideal S32x32x256 .bf16) (b : Fin 128) (o : Fin 256) :
    chunk xc kw (ix2 b o)
      = ∑ f : Fin 32, ∑ k : Fin 32, Spline.hot (xc (ix2 b f)) (BitVec.ofNat 32 k.val) * kw (ix3 f k o) := by
  rw [chunk_eq]
  refine (Ideal.multiReduction_add_single _ _ reduces_S32x128x256_S128x256 _ _ (ix2 b o)).trans ?_
  show (∑ f : Fin 32, _) = _
  refine Finset.sum_congr rfl fun f _ => ?_
  have hl : reduces_S32x128x256_S128x256.lift (ix2 b o) f = ix3 f b o := by
    funext a; apply Fin.ext
    match a with
    | ⟨0, _⟩ => rfl
    | ⟨1, _⟩ => rfl
    | ⟨2, _⟩ => rfl
  rw [hl]
  refine (Ideal.matmul_constant_zero_apply D none _ _ (ix3 f b o)).trans ?_
  rw [← Equiv.sum_comp contrEquiv.symm]
  refine Finset.sum_congr rfl fun k _ => ?_
  have e1 : D.lhsIdx (ix3 f b o) (contrEquiv.symm k) = ix3 f b k := by
    funext a; apply Fin.ext
    match a with
    | ⟨0, _⟩ => exact lhs_0 _ _
    | ⟨1, _⟩ => exact lhs_1 _ _
    | ⟨2, _⟩ => exact (lhs_2 _ _).trans (contrEquiv_symm_val k)
  have e2 : D.rhsIdx (ix3 f b o) (contrEquiv.symm k) = ix3 f k o := by
    funext a; apply Fin.ext
    match a with
    | ⟨0, _⟩ => exact rhs_0 _ _
    | ⟨1, _⟩ => exact (rhs_1 _ _).trans (contrEquiv_symm_val k)
    | ⟨2, _⟩ => exact rhs_2 _ _
  rw [e1, e2, coef_hot, shapeCast_self]

end AtIdeal

end Cert.KernelIdeal.Chunk

end
-- ==== Proof.KernelValue.lean ====
/-
  The kernel's result array as ONE function of the two argument arrays.

  The body's one store holds the zero array plus the eight feature chunks' values, each chunk a function of 32 columns
  of the input block and 32 rows of the table block (`out_eq`); read at `(p, o)` of the block, with each load read
  through its rectangle, the chunks' sums over 32 features join into one sum over the 256 features (`block_apply`,
  `sum_chunks`: 256 = 8 · 32). Grid point `t` stages rows `128·t … 128·t + 127` of the input and the whole table — the
  table as the host left it, a change of float format, the identity over the extended reals (`table_eq`) — and writes
  back rows `128·t …` of the result, so what it writes is block `t` of `Spline.G` of the arguments (`flushed_eq`); the
  16 blocks tile the result (`cover`), which therefore ends at `Spline.G` (`final`, `run`).
-/
import proofs.«176332_j11321533792683_1_alg».proof.Proof.Gen.KernelIdeal.Value
import proofs.«176332_j11321533792683_1_alg».proof.Proof.Chunk
import proofs.«176332_j11321533792683_1_alg».proof.Proof.Spline
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.KValue

open Cert.KernelIdeal Cert.KernelIdeal.Gen Cert.KernelIdeal.Chunk Idealize.ShloMosaic Idealize.ShloMosaic.TcCoe Idealize.SL.Sem
open Idealize.ShloMosaic.ValueIdx Idealize.ShloMosaic.StableHlo
open Idealize.ShloMosaic.Pipeline (Dat)

/-! ## The body's result -/

theorem hz2 : (![0, 0] : Fin 2 → Nat) = fun _ => 0 := funext fun a => by fin_cases a <;> rfl

section AnyInstance
variable {F : FTy → Type} [FloatOps F]

/-- The body's result: the zero array plus the eight chunks, in order. -/
theorem out_eq (x0 : Vec F S128x256 .f32) (x1 : Vec F S256x32x256 .bf16) :
    out0_2 x0 x1 = addf (addf (addf (addf (addf (addf (addf (addf (broadcast S128x256 (Scalar.ofBits .f32 0x00000000#32)) (chunk (View.ld x0 r0_0) (View.ld x1 r0_1))) (chunk (View.ld x0 r0_2) (View.ld x1 r0_3))) (chunk (View.ld x0 r0_4) (View.ld x1 r0_5))) (chunk (View.ld x0 r0_6) (View.ld x1 r0_7))) (chunk (View.ld x0 r0_8) (View.ld x1 r0_9))) (chunk (View.ld x0 r0_10) (View.ld x1 r0_11))) (chunk (View.ld x0 r0_12) (View.ld x1 r0_13))) (chunk (View.ld x0 r0_14) (View.ld x1 r0_15)) := by
  unfold out0_2
  rw [View.canon_unit_zero hz2, pay_first, pay_second, pay_third, pay_fourth, pay_fifth, pay_sixth, pay_seventh, pay_eighth]

end AnyInstance

/-! ## The loads, read at an index -/

/-- Thirty-two columns of the input block from column `off`, read at `(p, g)`: the block at `(p, off + g)`. -/
theorem ld_cols (X : Vec Ideal S128x256 .f32) (off : ℕ) (inb : ∀ a, (![0, off] : Fin 2 → Nat) a + S128x32.size a ≤ S128x256.size a)
    (p : Fin 128) (g : Fin 32) (h : off + g.val < 256) :
    View.ld X (Rect.unit (s := S128x256) ![0, off] S128x32.size inb) (ix2 p g) = X (ix2 p ⟨off + g.val, h⟩) := by
  show X _ = X _
  refine congrArg X (funext fun a => Fin.ext ?_)
  match a with
  | ⟨0, _⟩ => show 0 + 1 * p.val = p.val; omega
  | ⟨1, _⟩ => show off + 1 * g.val = off + g.val; omega

/-- Thirty-two rows of the table block from row `off`, read at `(g, k, o)`: the block at `(off + g, k, o)`. -/
theorem ld_rows (X : Vec Ideal S256x32x256 .bf16) (off : ℕ) (inb : ∀ a, (![off, 0, 0] : Fin 3 → Nat) a + S32x32x256.size a ≤ S256x32x256.size a)
    (g : Fin 32) (k : Fin 32) (o : Fin 256) (h : off + g.val < 256) :
    View.ld X (Rect.unit (s := S256x32x256) ![off, 0, 0] S32x32x256.size inb) (ix3 g k o) = X (ix3 ⟨off + g.val, h⟩ k o) := by
  show X _ = X _
  refine congrArg X (funext fun a => Fin.ext ?_)
  match a with
  | ⟨0, _⟩ => show off + 1 * g.val = off + g.val; omega
  | ⟨1, _⟩ => show 0 + 1 * k.val = k.val; omega
  | ⟨2, _⟩ => show 0 + 1 * o.val = o.val; omega

/-- A sum over the 256 features is the eight chunks' sums, added in order to zero. -/
theorem sum_chunks {M : Type*} [AddCommMonoid M] (h : Fin 256 → M) :
    ∑ f : Fin 256, h f = 0 + (∑ g : Fin 32, h ⟨0 + g.val, by omega⟩) + (∑ g : Fin 32, h ⟨32 + g.val, by omega⟩) + (∑ g : Fin 32, h ⟨64 + g.val, by omega⟩) + (∑ g : Fin 32, h ⟨96 + g.val, by omega⟩) + (∑ g : Fin 32, h ⟨128 + g.val, by omega⟩) + (∑ g : Fin 32, h ⟨160 + g.val, by omega⟩) + (∑ g : Fin 32, h ⟨192 + g.val, by omega⟩) + (∑ g : Fin 32, h ⟨224 + g.val, by omega⟩) := by
  have e : ∀ (c : Fin 8) (g : Fin 32), (finProdFinEquiv (c, g) : Fin (8 * 32)) = ⟨g.val + 32 * c.val, by omega⟩ :=
    fun c g => Fin.ext (by simp [finProdFinEquiv])
  have hs : ∑ f : Fin 256, h f = ∑ c : Fin 8, ∑ g : Fin 32, h ⟨g.val + 32 * c.val, by omega⟩ := by
    rw [← Equiv.sum_comp (finProdFinEquiv (m := 8) (n := 32)) h, Fintype.sum_prod_type]
    simp only [e]
  rw [hs, Fin.sum_univ_eight, zero_add]
  have r : ∀ (c off : ℕ) (hc : c < 8) (ho : off = 32 * c),
      ∑ g : Fin 32, h ⟨g.val + 32 * ((⟨c, hc⟩ : Fin 8) : ℕ), by omega⟩ = ∑ g : Fin 32, h ⟨off + g.val, by omega⟩ :=
    fun c off hc ho => Finset.sum_congr rfl fun g _ => congrArg h (Fin.ext (by show g.val + 32 * c = off + g.val; omega))
  exact congrArg₂ (· + ·) (congrArg₂ (· + ·) (congrArg₂ (· + ·) (congrArg₂ (· + ·) (congrArg₂ (· + ·) (congrArg₂ (· + ·) (congrArg₂ (· + ·)
    (r 0 0 (by omega) rfl) (r 1 32 (by omega) rfl)) (r 2 64 (by omega) rfl)) (r 3 96 (by omega) rfl)) (r 4 128 (by omega) rfl))
    (r 5 160 (by omega) rfl)) (r 6 192 (by omega) rfl)) (r 7 224 (by omega) rfl)

/-- THE BLOCK AT `(p, o)`: the sum over the 256 features and the 32 control points of the two-hot coefficient of the
    input block at `(p, f)` times the table block at `(f, k, o)`. -/
theorem block_apply (x0 : Vec Ideal S128x256 .f32) (x1 : Vec Ideal S256x32x256 .bf16) (p : Fin 128) (o : Fin 256) :
    out0_2 x0 x1 (ix2 p o)
      = ∑ f : Fin 256, ∑ k : Fin 32, Spline.hot (x0 (ix2 p f)) (BitVec.ofNat 32 k.val) * x1 (ix3 f k o) := by
  have hc : ∀ (off : ℕ) (h1 : off + 32 ≤ 256) (inbx : ∀ a, (![0, off] : Fin 2 → Nat) a + S128x32.size a ≤ S128x256.size a)
      (inbw : ∀ a, (![off, 0, 0] : Fin 3 → Nat) a + S32x32x256.size a ≤ S256x32x256.size a),
      chunk (View.ld x0 (Rect.unit (s := S128x256) ![0, off] S128x32.size inbx))
          (View.ld x1 (Rect.unit (s := S256x32x256) ![off, 0, 0] S32x32x256.size inbw)) (ix2 p o)
        = ∑ g : Fin 32, ∑ k : Fin 32, Spline.hot (x0 (ix2 p ⟨off + g.val, by omega⟩)) (BitVec.ofNat 32 k.val)
            * x1 (ix3 ⟨off + g.val, by omega⟩ k o) := by
    intro off h1 inbx inbw
    rw [chunk_apply]
    refine Finset.sum_congr rfl fun g _ => Finset.sum_congr rfl fun k _ => ?_
    rw [ld_cols x0 off inbx p g (by omega), ld_rows x1 off inbw g k o (by omega)]
  rw [out_eq, sum_chunks]
  show Ideal.ofBits .f32 0x00000000#32 + _ + _ + _ + _ + _ + _ + _ + _ = _
  rw [Ideal.ofBits_zero_f32]
  show 0 + chunk _ _ (ix2 p o) + chunk _ _ (ix2 p o) + chunk _ _ (ix2 p o) + chunk _ _ (ix2 p o) + chunk _ _ (ix2 p o)
    + chunk _ _ (ix2 p o) + chunk _ _ (ix2 p o) + chunk _ _ (ix2 p o) = _
  rw [hc 0 (by omega), hc 32 (by omega), hc 64 (by omega), hc 96 (by omega), hc 128 (by omega), hc 160 (by omega),
    hc 192 (by omega), hc 224 (by omega)]

/-! ## From the blocks to the array -/

section Array
variable (m : (ℓ : Loc nD τ sig) → Buf (Elt Ideal) ℓ) (ρ : Dev nD → PrngReg)

/-- The printed index maps over the 16 grid points: the input and the result move by row blocks, the table stays. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The table the region stages is the table argument: the host's change of float format is the identity. -/
theorem table_eq (c : Dev nD) :
    (V m c main_v0 : S256x32x256.Idx → EReal) = (m ((c : Thread nD τ).loc main_arg1) : S256x32x256.Idx → EReal) := by
  dsimp only [Gen.V, Gen.hostOps0]; after_results; rfl

/-- WHAT POINT `t` WRITES BACK is block `t` of `Spline.G` of the argument arrays. -/
theorem flushed_eq (c : Dev nD) (t : Fin cfg0.N) :
    (dats m 0 c).flushed 2 t = ((cfg0.win 2).blk t).view.read (Elt Ideal)
      (Spline.G (m ((c : Thread nD τ).loc main_arg0)) (m ((c : Thread nD τ).loc main_arg1))) := by
  rw [Value.flushed2]
  obtain ⟨e00, e01, e10, e11, e12, e20, e21⟩ := idx_facts t
  funext y
  obtain ⟨p, o, rfl⟩ : ∃ (p : Fin 128) (o : Fin 256), y = ix2 p o := ⟨y 0, y 1, eq_ix2 y⟩
  show out0_2 (iblk m c 0 t) (iblk m c 1 t) (ix2 p o)
    = Spline.G (m ((c : Thread nD τ).loc main_arg0)) (m ((c : Thread nD τ).loc main_arg1)) (((cfg0.win 2).blk t).view.emb (ix2 p o))
  refine (block_apply (iblk m c 0 t) (iblk m c 1 t) p o).trans ?_
  unfold Spline.G
  refine Finset.sum_congr rfl fun f _ => Finset.sum_congr rfl fun k _ => ?_
  have hx : iblk m c 0 t (ix2 p f)
      = m ((c : Thread nD τ).loc main_arg0) (ix2 ((((cfg0.win 2).blk t).view.emb (ix2 p o)) 0) f) := by
    show V m c main_arg0 (((cfg0.win 0).blk t).view.emb (ix2 p f)) = _
    rw [V_main_arg0]
    refine congrArg _ (funext fun a => Fin.ext ?_)
    match a with
    | ⟨0, _⟩ => show win0_0.index t (0 : Fin 2) * 128 + 1 * p.val = win0_2.index t (0 : Fin 2) * 128 + 1 * p.val; omega
    | ⟨1, _⟩ => show win0_0.index t (1 : Fin 2) * 256 + 1 * f.val = f.val; omega
  have hw : iblk m c 1 t (ix3 f k o)
      = m ((c : Thread nD τ).loc main_arg1) (ix3 f k ((((cfg0.win 2).blk t).view.emb (ix2 p o)) 1)) := by
    show V m c main_v0 (((cfg0.win 1).blk t).view.emb (ix3 f k o)) = _
    rw [table_eq]
    refine congrArg _ (funext fun a => Fin.ext ?_)
    match a with
    | ⟨0, _⟩ => show win0_1.index t (0 : Fin 3) * 256 + 1 * f.val = f.val; omega
    | ⟨1, _⟩ => show win0_1.index t (1 : Fin 3) * 32 + 1 * k.val = k.val; omega
    | ⟨2, _⟩ => show win0_1.index t (2 : Fin 3) * 256 + 1 * o.val = win0_2.index t (1 : Fin 2) * 256 + 1 * o.val; omega
  rw [hx, hw]

/-- An index of the result is in point `t`'s block iff each coordinate is in the block's range on its axis. -/
theorem mem_blk (t : Fin cfg0.N) (i : S2048x256.Idx) :
    i ∈ ((cfg0.win 2).blk t).view.set ↔ ∀ a : Fin 2, win0_2.index t a * S128x256.size a ≤ (i a).val
      ∧ (i a).val < win0_2.index t a * S128x256.size a + S128x256.size a := by
  show i ∈ ((View.whole main_v1).slice (win0_2.rect t)).set ↔ _
  rw [View.set_slice_whole, Rect.mem_set_unit]
  exact Iff.rfl

/-- Every index of the result is in the block of the point its row falls to. -/
theorem cover (i : S2048x256.Idx) : ∃ t : Fin cfg0.N, (cfg0.win 2).flush t = true ∧ i ∈ ((cfg0.win 2).blk t).view.set := by
  have hi0 : (i 0).val < 2048 := (i 0).isLt
  have hi1 : (i 1).val < 256 := (i 1).isLt
  have hN : cfg0.N = 16 := N_0
  obtain ⟨t, ht⟩ : ∃ t : Fin cfg0.N, t.val = (i 0).val / 128 := ⟨⟨(i 0).val / 128, by rw [hN]; omega⟩, rfl⟩
  obtain ⟨_, _, _, _, _, e20, e21⟩ := idx_facts t
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 256 ≤ (i 1).val ∧ (i 1).val < win0_2.index t (1 : Fin 2) * 256 + 256
    omega

/-- THE RESULT ARRAY after the run is `Spline.G` of the argument arrays. -/
theorem final (c : Dev nD) : (dats m 0 c).arrAt 2 cfg0.N
    = Spline.G (m ((c : Thread nD τ).loc main_arg0)) (m ((c : Thread nD τ).loc main_arg1)) :=
  (dats m 0 c).arrAt_eq_of_cover 2 _ (fun t _ => flushed_eq m c t) cover

/-- The kernel's run: every weakly fair execution ends with the result at `Spline.G` of the arguments, the arguments
    unchanged. -/
theorem run : θ_run defs (onTc (τ := τ) (main (F := Ideal))) ⟨m, fun _ => 0, ρ⟩ fun r => ∀ c : Dev nD,
      r.2.mem ((c : Thread nD τ).loc main_v1) = Spline.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Array

end Cert.KernelIdeal.KValue

end
-- ==== Proof.RefValue.lean ====
/-
  The reference program's result array, read as a function of its two argument arrays.

  The reference rescales each input to the control-point grid, clips the floor of the position to a cell, gathers the
  table's rows at the cell and at its successor, interpolates linearly between them and sums over the features. Each
  stage is read here at one index: the scalar chain gives the position, the cell (as a float and as a word) and the
  position inside the cell; the two index arrays hold, for a finite input, the feature and a cell in range, so the
  gathers read the table at exactly (feature, cell) and (feature, cell + 1), neither wrapped nor clamped; and the sum
  over the features of the interpolated entries is the two-hot sum of the specification.
-/
import proofs.«176332_j11321533792683_1_alg».proof.Proof.Gen.ReferenceIdeal.Read
import proofs.«176332_j11321533792683_1_alg».proof.Proof.Spline
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Words: a small natural number as a 32-bit word -/

/-- A natural number below 2³¹, as a 32-bit word read signed, is itself. -/
theorem toInt_ofNat_small (n : ℕ) (hn : n < 2 ^ 31) : (BitVec.ofNat 32 n).toInt = (n : ℤ) := by
  have hm : (BitVec.ofNat 32 n).toNat = n := by
    rw [BitVec.toNat_ofNat]; omega
  rw [BitVec.toInt_eq_toNat_of_lt (by rw [hm]; omega), hm]

/-- A natural number below 2³¹, as a 32-bit word, is not negative. -/
theorem slt_zero_ofNat (n : ℕ) (hn : n < 2 ^ 31) : IntOp.cmpi .slt (BitVec.ofNat 32 n) 0#32 = 0#1 := by
  unfold IntOp.cmpi
  have h : (BitVec.ofNat 32 n).slt 0#32 = false := by
    rw [BitVec.slt_eq_decide, decide_eq_false_iff_not, toInt_ofNat_small n hn, BitVec.toInt_zero]
    omega
  simp only [h]
  rfl

/-- The negative-index wrap leaves a natural number below 2³¹ alone. -/
theorem wrap_ofNat (n : ℕ) (hn : n < 2 ^ 31) (c : BitVec 32) :
    Scalar.select (IntOp.cmpi .slt (BitVec.ofNat 32 n) 0#32) c (BitVec.ofNat 32 n) = BitVec.ofNat 32 n := by
  rw [slt_zero_ofNat n hn]
  exact if_neg (by decide)

/-- A natural number below 2³¹, as a 32-bit word read signed and then as a natural number, is itself. -/
theorem toInt_toNat_ofNat (n : ℕ) (hn : n < 2 ^ 31) : (BitVec.ofNat 32 n).toInt.toNat = n := by
  rw [toInt_ofNat_small n hn]
  exact Int.toNat_natCast n

/-- The successor of a small word. -/
theorem addi_one_ofNat (n : ℕ) : IntOp.addi (BitVec.ofNat 32 n) 1#32 = BitVec.ofNat 32 (n + 1) := by
  unfold IntOp.addi
  apply BitVec.eq_of_toNat_eq
  simp only [BitVec.toNat_add, BitVec.toNat_ofNat]
  omega

/-! ## The two-index gather read at an index -/

section Gather
variable {α : Type}

/-- The start-indices index (b, f, c) of result index (b, f, o): component c of the start index. -/
abbrev startAt (b : Fin 2048) (f : Fin 256) (c : Fin 2) : S2048x256x2.Idx := ix3 b f c

/-- THE GATHER READ AT (b, f, o): the table at (the two components of the start index at (b, f), each read signed and
    clamped so that the unit slice fits, and o on the axis the slice keeps whole). -/
theorem gather_apply {w : Nat} (x : S256x32x256.Idx → α) (idx : IVec S2048x256x2 w) (b : Fin 2048) (f : Fin 256) (o : Fin 256) :
    Host.gather gather_S256x32x256_S2048x256x2_S2048x256x256_2_01_n_n_01_2_11256 x idx (ix3 b f o)
      = x (ix3 (⟨min (idx (startAt b f 0)).toInt.toNat 255, by omega⟩ : Fin 256)
            (⟨min (idx (startAt b f 1)).toInt.toNat 31, by omega⟩ : Fin 32) o) := by
  unfold Host.gather
  refine congrArg x (funext fun a => Fin.ext ?_)
  match a with
  | ⟨0, _⟩ =>
    -- a collapsed axis the start index names: the clamped start, nothing added
    show GatherDims.start _ (ix3 b f o) idx 0 + GatherDims.batchCoord _ (ix3 b f o) 0 + GatherDims.offCoord _ (ix3 b f o) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ (gather_S256x32x256_S2048x256x2_S2048x256x256_2_01_n_n_01_2_11256).startIndexMap from by decide)]
    have hsi : (gather_S256x32x256_S2048x256x2_S2048x256x256_2_01_n_n_01_2_11256).siIdx (ix3 b f o)
        ⟨List.idxOf (0 : Fin 3) (gather_S256x32x256_S2048x256x2_S2048x256x256_2_01_n_n_01_2_11256).startIndexMap,
          List.idxOf_lt_length_iff.2 (by decide)⟩ = startAt b f 0 := by
      funext c; refine Fin.ext ?_
      match c with
      | ⟨0, _⟩ => rfl
      | ⟨1, _⟩ => rfl
      | ⟨2, _⟩ => rfl
    rw [hsi]
    rfl
  | ⟨1, _⟩ =>
    show GatherDims.start _ (ix3 b f o) idx 1 + GatherDims.batchCoord _ (ix3 b f o) 1 + GatherDims.offCoord _ (ix3 b f o) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ (gather_S256x32x256_S2048x256x2_S2048x256x256_2_01_n_n_01_2_11256).startIndexMap from by decide)]
    have hsi : (gather_S256x32x256_S2048x256x2_S2048x256x256_2_01_n_n_01_2_11256).siIdx (ix3 b f o)
        ⟨List.idxOf (1 : Fin 3) (gather_S256x32x256_S2048x256x2_S2048x256x256_2_01_n_n_01_2_11256).startIndexMap,
          List.idxOf_lt_length_iff.2 (by decide)⟩ = startAt b f 1 := by
      funext c; refine Fin.ext ?_
      match c with
      | ⟨0, _⟩ => rfl
      | ⟨1, _⟩ => rfl
      | ⟨2, _⟩ => rfl
    rw [hsi]
    rfl
  | ⟨2, _⟩ =>
    -- the axis the slice keeps whole: no start, the result's offset coordinate
    show GatherDims.start _ (ix3 b f o) idx 2 + GatherDims.batchCoord _ (ix3 b f o) 2 + GatherDims.offCoord _ (ix3 b f o) 2 = _
    rw [GatherDims.batchCoord_eq_zero _ _ _ List.not_mem_nil]
    unfold GatherDims.start
    rw [dif_neg (show (2 : Fin 3) ∉ (gather_S256x32x256_S2048x256x2_S2048x256x256_2_01_n_n_01_2_11256).startIndexMap from by decide)]
    unfold GatherDims.offCoord
    rw [dif_pos (show (2 : Fin 3) ∈ (gather_S256x32x256_S2048x256x2_S2048x256x256_2_01_n_n_01_2_11256).sKept from by decide)]
    simp only [Nat.zero_add, Nat.add_zero]
    rfl

end Gather

/-! ## The scalar chain read at an index -/

section Chain
variable (X : (⟨S2048x256, .f32⟩ : BufTy).Contents (Elt Ideal))

/-- The rescaled input. -/
theorem pos_apply (i : S2048x256.Idx) : val_main_v5 (F := Ideal) X i = Cert.Spline.pos (X i) := by
  rw [val_main_v5_apply, val_main_v3_apply, val_main_v1_apply, val_main_v0_apply, val_main_cst_apply,
    val_main_v2_apply, val_main_cst_0_apply, val_main_v4_apply, val_main_cst_1_apply]
  rfl

/-- The clip's upper bound, the word 30 converted to a float, is the real number 30. -/
theorem sitofp_thirty : FloatOps.sitofp (F := Ideal) .f32 (30#32 : BitVec 32) = Ideal.ofBits .f32 0x41F00000#32 := by
  rw [Cert.Spline.thirty]
  show ((((30#32 : BitVec 32).toInt : ℝ)) : EReal) = _
  have h : (30#32 : BitVec 32).toInt = 30 := by decide
  rw [h]
  norm_num

/-- The cell as a float: the floor of the position clipped to [0, 30]. -/
theorem low_apply (i : S2048x256.Idx) : val_main_v7 (F := Ideal) X i = Cert.Spline.low (X i) := by
  rw [val_main_v7_apply, val_main_call0_v4_apply, val_main_call0_v3_apply, val_main_c_apply, val_main_call0_v2_apply,
    val_main_call0_v1_apply, val_main_call0_v0_apply, val_main_cst_2_apply, val_main_v6_apply, pos_apply, sitofp_thirty]
  rfl

/-- The cell as a word. -/
theorem cell_apply (i : S2048x256.Idx) : val_main_v8 (F := Ideal) X i = Cert.Spline.cell (X i) := by
  rw [val_main_v8_apply, low_apply]
  rfl

/-- The position inside the cell. -/
theorem frac_apply (i : S2048x256.Idx) : val_main_v43 (F := Ideal) X i = Cert.Spline.frac (X i) := by
  rw [val_main_v43_apply, pos_apply, low_apply]
  rfl

/-! ## The two index arrays -/

/-- The feature index after its wrap: the feature. -/
theorem feat_apply (i : S1x256.Idx) : val_main_v15 (F := Ideal) i = BitVec.ofNat 32 (i 1).val := by
  rw [val_main_v15_apply, val_main_v12_apply, val_main_v10_apply, val_main_v9_apply, val_main_v11_apply, val_main_c_3_apply]
  have hlt : (i 1).val < 256 := (i 1).isLt
  exact wrap_ofNat (i 1).val (by omega) _

/-- The same for the second gather's copy of the feature index. -/
theorem feat'_apply (i : S1x256.Idx) : val_main_v32 (F := Ideal) i = BitVec.ofNat 32 (i 1).val := by
  rw [val_main_v32_apply, val_main_v29_apply, val_main_v10_apply, val_main_v9_apply, val_main_v28_apply, val_main_c_8_apply]
  have hlt : (i 1).val < 256 := (i 1).isLt
  exact wrap_ofNat (i 1).val (by omega) _

/-- The cell index after its wrap, for a cell in range: the cell. -/
theorem cellIdx_apply (i : S2048x256.Idx) (n : ℕ) (hn : n ≤ 30) (hc : Cert.Spline.cell (X i) = BitVec.ofNat 32 n) :
    val_main_v20 (F := Ideal) X i = BitVec.ofNat 32 n := by
  rw [val_main_v20_apply, val_main_v17_apply, cell_apply, hc, val_main_v16_apply, val_main_c_5_apply]
  exact wrap_ofNat n (by omega) _

/-- The successor cell's index after its wrap, for a cell in range: the successor. -/
theorem succIdx_apply (i : S2048x256.Idx) (n : ℕ) (hn : n ≤ 30) (hc : Cert.Spline.cell (X i) = BitVec.ofNat 32 n) :
    val_main_v37 (F := Ideal) X i = BitVec.ofNat 32 (n + 1) := by
  rw [val_main_v37_apply, val_main_v34_apply, val_main_v27_apply, cell_apply, hc, val_main_v26_apply, val_main_c_7_apply,
    addi_one_ofNat, val_main_v33_apply, val_main_c_10_apply]
  exact wrap_ofNat (n + 1) (by omega) _

/-- Component 0 of the first gather's start index at (b, f): the feature. -/
theorem start0_apply (b : Fin 2048) (f : Fin 256) : val_main_v24 (F := Ideal) X (startAt b f 0) = BitVec.ofNat 32 f.val := by
  unfold val_main_v24
  refine (concatenate_pair_apply_left _ _ _ concatenates_S2048x256x1_S2048x256x1_S2048x256x2_d2 (startAt b f 0) rfl
    (ix3 b f (0 : Fin 1)) (fun c => by match c with | ⟨0, _⟩ => rfl | ⟨1, _⟩ => rfl | ⟨2, _⟩ => rfl)).trans ?_
  rw [val_main_v22_apply, val_main_v21_apply, feat_apply]

/-- Component 1 of the first gather's start index at (b, f): the cell's index. -/
theorem start1_apply (b : Fin 2048) (f : Fin 256) : val_main_v24 (F := Ideal) X (startAt b f 1) = val_main_v20 (F := Ideal) X (ix2 b f) := by
  unfold val_main_v24
  refine (concatenate_pair_apply_right _ _ _ concatenates_S2048x256x1_S2048x256x1_S2048x256x2_d2 (startAt b f 1) rfl rfl
    (ix3 b f (0 : Fin 1)) (fun c hc => ?_) rfl).trans ?_
  · match c with
    | ⟨0, _⟩ => rfl
    | ⟨1, _⟩ => rfl
    | ⟨2, _⟩ => exact absurd rfl hc
  · rw [val_main_v23_apply]
    exact congrArg _ (funext fun a => by match a with | ⟨0, _⟩ => rfl | ⟨1, _⟩ => rfl)

/-- Component 0 of the second gather's start index at (b, f): the feature. -/
theorem start0'_apply (b : Fin 2048) (f : Fin 256) : val_main_v41 (F := Ideal) X (startAt b f 0) = BitVec.ofNat 32 f.val := by
  unfold val_main_v41
  refine (concatenate_pair_apply_left _ _ _ concatenates_S2048x256x1_S2048x256x1_S2048x256x2_d2 (startAt b f 0) rfl
    (ix3 b f (0 : Fin 1)) (fun c => by match c with | ⟨0, _⟩ => rfl | ⟨1, _⟩ => rfl | ⟨2, _⟩ => rfl)).trans ?_
  rw [val_main_v39_apply, val_main_v38_apply, feat'_apply]

/-- Component 1 of the second gather's start index at (b, f): the successor cell's index. -/
theorem start1'_apply (b : Fin 2048) (f : Fin 256) : val_main_v41 (F := Ideal) X (startAt b f 1) = val_main_v37 (F := Ideal) X (ix2 b f) := by
  unfold val_main_v41
  refine (concatenate_pair_apply_right _ _ _ concatenates_S2048x256x1_S2048x256x1_S2048x256x2_d2 (startAt b f 1) rfl rfl
    (ix3 b f (0 : Fin 1)) (fun c hc => ?_) rfl).trans ?_
  · match c with
    | ⟨0, _⟩ => rfl
    | ⟨1, _⟩ => rfl
    | ⟨2, _⟩ => exact absurd rfl hc
  · rw [val_main_v40_apply]
    exact congrArg _ (funext fun a => by match a with | ⟨0, _⟩ => rfl | ⟨1, _⟩ => rfl)

/-! ## The two gathers at (b, f, o), for a cell in range -/

variable (W : (⟨S256x32x256, .f32⟩ : BufTy).Contents (Elt Ideal))

/-- The first gather reads the table at (feature, cell). -/
theorem lowRow_apply (b : Fin 2048) (f : Fin 256) (o : Fin 256) (n : ℕ) (hn : n ≤ 30)
    (hc : Cert.Spline.cell (X (ix2 b f)) = BitVec.ofNat 32 n) :
    val_main_v25 (F := Ideal) X W (ix3 b f o) = W (ix3 f (⟨n, by omega⟩ : Fin 32) o) := by
  unfold val_main_v25
  rw [gather_apply]
  have hf := f.isLt
  have h0 : (val_main_v24 (F := Ideal) X (startAt b f 0)).toInt.toNat = f.val := by
    rw [start0_apply, toInt_toNat_ofNat _ (by omega)]
  have h1 : (val_main_v24 (F := Ideal) X (startAt b f 1)).toInt.toNat = n := by
    rw [start1_apply, cellIdx_apply X _ n hn hc, toInt_toNat_ofNat _ (by omega)]
  refine congrArg W (funext fun a => ?_)
  match a with
  | ⟨0, _⟩ => exact Fin.ext (by show min _ 255 = f.val; rw [h0]; omega)
  | ⟨1, _⟩ => exact Fin.ext (by show min _ 31 = n; rw [h1]; omega)
  | ⟨2, _⟩ => rfl

/-- The second gather reads the table at (feature, cell + 1). -/
theorem highRow_apply (b : Fin 2048) (f : Fin 256) (o : Fin 256) (n : ℕ) (hn : n ≤ 30)
    (hc : Cert.Spline.cell (X (ix2 b f)) = BitVec.ofNat 32 n) :
    val_main_v42 (F := Ideal) X W (ix3 b f o) = W (ix3 f (⟨n + 1, by omega⟩ : Fin 32) o) := by
  unfold val_main_v42
  rw [gather_apply]
  have hf := f.isLt
  have h0 : (val_main_v41 (F := Ideal) X (startAt b f 0)).toInt.toNat = f.val := by
    rw [start0'_apply, toInt_toNat_ofNat _ (by omega)]
  have h1 : (val_main_v41 (F := Ideal) X (startAt b f 1)).toInt.toNat = n + 1 := by
    rw [start1'_apply, succIdx_apply X _ n hn hc, toInt_toNat_ofNat _ (by omega)]
  refine congrArg W (funext fun a => ?_)
  match a with
  | ⟨0, _⟩ => exact Fin.ext (by show min _ 255 = f.val; rw [h0]; omega)
  | ⟨1, _⟩ => exact Fin.ext (by show min _ 31 = n + 1; rw [h1]; omega)
  | ⟨2, _⟩ => rfl

/-! ## One feature's term, and the result -/

/-- ONE FEATURE'S TERM: the interpolation between the table's entries at the cell and at its successor is the
    two-hot row of the input against the table's column. -/
theorem term_apply (hX : ∀ i, ∃ r : ℝ, X i = ((r : ℝ) : EReal)) (hW : ∀ i, ∃ r : ℝ, W i = ((r : ℝ) : EReal))
    (b : Fin 2048) (f : Fin 256) (o : Fin 256) :
    val_main_v48 (F := Ideal) X W (ix3 b f o)
      = ∑ k : Fin 32, Cert.Spline.hot (X (ix2 b f)) (BitVec.ofNat 32 k.val) * W (ix3 f k o) := by
  obtain ⟨r, hr⟩ := hX (ix2 b f)
  obtain ⟨n, hn, hc, _⟩ := Cert.Spline.cell_spec r
  have hc' : Cert.Spline.cell (X (ix2 b f)) = BitVec.ofNat 32 n := by rw [hr]; exact hc
  choose g hg using fun k : Fin 32 => hW (ix3 f k o)
  have hix : idx_main_v44 (idx_main_v46 (ix3 b f o)) = ix2 b f := by
    funext a; match a with | ⟨0, _⟩ => rfl | ⟨1, _⟩ => rfl
  rw [val_main_v48_apply, val_main_v47_apply, val_main_v45_apply, val_main_v46_apply, val_main_v44_apply, frac_apply,
    lowRow_apply X W b f o n hn hc', highRow_apply X W b f o n hn hc', hix, hr]
  simp only [hg]
  exact (Cert.Spline.hot_sum r n hn hc g).symm

end Chain

/-- THE REFERENCE'S RESULT IS THE SPECIFICATION'S, for finite inputs and a finite table. -/
theorem result_eq (X : (⟨Cert.ReferenceIdeal.S2048x256, .f32⟩ : BufTy).Contents (Elt Ideal)) (W : (⟨Cert.ReferenceIdeal.S256x32x256, .f32⟩ : BufTy).Contents (Elt Ideal))
    (hX : ∀ i, ∃ r : ℝ, X i = ((r : ℝ) : EReal)) (hW : ∀ i, ∃ r : ℝ, W i = ((r : ℝ) : EReal)) :
    Cert.ReferenceIdeal.Read.val_main_v49 (F := Ideal) X W = Cert.Spline.G X W := by
  funext j
  obtain ⟨b, o, rfl⟩ : ∃ (b : Fin 2048) (o : Fin 256), j = ix2 b o := ⟨j 0, j 1, eq_ix2 j⟩
  rw [val_main_v49_apply, val_main_cst_12_apply]
  have h0 : FloatOps.ofBits (F := Ideal) .f32 0x00000000#32 = (0 : EReal) := by
    show Ideal.ofBits .f32 0x00000000#32 = _
    rw [Cert.Spline.zero]; rfl
  rw [h0, zero_add]
  unfold Cert.Spline.G
  refine Finset.sum_congr rfl fun f _ => ?_
  have hidx : idx_main_v49 (ix2 b o) f = ix3 b f o := by
    funext a; match a with | ⟨0, _⟩ => rfl | ⟨1, _⟩ => rfl | ⟨2, _⟩ => rfl
  rw [hidx]
  exact term_apply X W hX hW b f o

end Cert.ReferenceIdeal.RefValue

end
-- ==== Proof.Finite.lean ====
/-
  Finiteness of the two argument arrays, read back from the precondition.

  The precondition is the conjunction of two statements of one form: every entry `x` of an array satisfies
  `|x| < +∞`, where `|x|` is `max x (−x)` over the extended reals and `+∞` is spelt as the word `0x7F800000`.
  A conjunction of one-bit words is 1 exactly when both are; a conjunction over all entries of an array is 1 only
  when every entry is 1. What remains is a fact about ONE extended real: `max x (−x) < ⊤` excludes `x = ⊤`
  (then `max x (−x) = ⊤`) and `x = ⊥` (then `−x = ⊤`), so `x` is a real number.
-/
import proofs.«176332_j11321533792683_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx

/-- The word `0x7F800000` encodes `+∞`. -/
theorem inf : Ideal.ofBits .f32 0x7F800000#32 = (⊤ : EReal) := by
  simp [Ideal.ofBits, Ideal.ieee]

/-- An extended real whose absolute value `max x (−x)` is strictly below `+∞` is a real number. -/
theorem real_of_abs_lt (x : EReal) (h : Ideal.cmp .olt (max x (-x)) (Ideal.ofBits .f32 0x7F800000#32) = 1#1) :
    ∃ r : ℝ, x = ((r : ℝ) : EReal) := by
  rw [inf] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

/-- Under the precondition every entry of both argument arrays is a real number. -/
theorem of_pre [Cert.Pre_finite_inputs.Facts] (X : FVec Ideal Cert.Pre_finite_inputs.S2048x256 .f32) (W : FVec Ideal Cert.Pre_finite_inputs.S256x32x256 .f32)
    (h : Cert.Pre_finite_inputs.fn (F := Ideal) X W = (fun _ => 1#1)) :
    (∀ i, ∃ r : ℝ, X i = ((r : ℝ) : EReal)) ∧ (∀ i, ∃ r : ℝ, W i = ((r : ℝ) : EReal)) := by
  have h0 := congrFun h ValueIdx.ix0
  dsimp only [Cert.Pre_finite_inputs.fn] at h0
  obtain ⟨hX, hW⟩ := IntOp.andi_eq_one.1 h0
  constructor
  · intro i
    exact real_of_abs_lt (X i) (Host.reduce_andi_all _ _ _ _ _ hX i)
  · intro i
    exact real_of_abs_lt (W i) (Host.reduce_andi_all _ _ _ _ _ hW i)

end Cert.Finite

end
-- ==== Proof.lean ====
/-
  The certificate of the spline layer: the kernel (at the word level and idealized) and the reference each run to the
  end leaving their arguments as they were, and the idealized kernel and the idealized reference, from memories that
  agree on the two arguments, end with equal results over the extended reals.

  The kernel turns the two-point gather and the linear interpolation of the reference into a product with a two-hot
  coefficient row: per input `x[b, f]` the row over the 32 control points holds `1 − frac` at the cell, `frac` at the
  cell's successor and `0` elsewhere, and the result at `(b, o)` is the sum over features and control points of the
  coefficient times the table entry (`Cert.Spline.G`). The kernel's result array is exactly that function of the
  arguments, chunk by chunk of 32 features and block by block of 128 batch rows (`Cert.KernelIdeal.KValue.run`; no
  finiteness is used there, zero times any extended real being zero). The reference gathers the two table rows at the
  cell and its successor and forms `L + frac · (U − L)`; for finite inputs that is the two-hot row's sum
  (`Cert.Spline.hot_sum`, used in `Cert.ReferenceIdeal.RefValue.result_eq`) — the one law that needs the precondition,
  since `(1 − t)·L + t·U = L + t·(U − L)` fails at the infinities (`Cert.Finite.of_pre` reads finiteness off it).
  The idealization rewrote nothing, so `preserves` is trivial.
-/
import proofs.«176332_j11321533792683_1_alg».proof.Defs
import proofs.«176332_j11321533792683_1_alg».proof.Proof.Gen.Kernel
import proofs.«176332_j11321533792683_1_alg».proof.Proof.Gen.Kernel.Skeleton
import proofs.«176332_j11321533792683_1_alg».proof.Proof.Gen.Kernel.Launch
import proofs.«176332_j11321533792683_1_alg».proof.Proof.Gen.Kernel.Points
import proofs.«176332_j11321533792683_1_alg».proof.Proof.Gen.Kernel.Frame
import proofs.«176332_j11321533792683_1_alg».proof.Proof.Gen.KernelIdeal
import proofs.«176332_j11321533792683_1_alg».proof.Proof.Gen.KernelIdeal.Skeleton
import proofs.«176332_j11321533792683_1_alg».proof.Proof.Gen.KernelIdeal.Launch
import proofs.«176332_j11321533792683_1_alg».proof.Proof.Gen.KernelIdeal.Points
import proofs.«176332_j11321533792683_1_alg».proof.Proof.Gen.KernelIdeal.Frame
import proofs.«176332_j11321533792683_1_alg».proof.Proof.Gen.ReferenceIdeal
import proofs.«176332_j11321533792683_1_alg».proof.Proof.Gen.Pre_finite_inputs
import proofs.«176332_j11321533792683_1_alg».proof.Proof.Gen.KernelIdeal.Value
import proofs.«176332_j11321533792683_1_alg».proof.Proof.Gen.ReferenceIdeal.Run
import proofs.«176332_j11321533792683_1_alg».proof.Proof.Gen.ReferenceIdeal.Read
import proofs.«176332_j11321533792683_1_alg».proof.Proof.Spline
import proofs.«176332_j11321533792683_1_alg».proof.Proof.Chunk
import proofs.«176332_j11321533792683_1_alg».proof.Proof.KernelValue
import proofs.«176332_j11321533792683_1_alg».proof.Proof.RefValue
import proofs.«176332_j11321533792683_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at `Cert.Spline.G` of the arguments: the kernel for any contents, the reference for
    finite ones, which the precondition gives. -/
theorem algebraic : Cert.algebraic_KernelIdeal_ReferenceIdeal := by
  intro m ρ m' ρ' hpre hagree
  refine ⟨fun c => Cert.Spline.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2]
  obtain ⟨hX, hW⟩ := Cert.Finite.of_pre _ _ (hpre c)
  exact Cert.ReferenceIdeal.RefValue.result_eq _ _ hX hW

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
